-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 45
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S1024x1024, .bf16⟩
  | .hbm, ⟨27, _⟩ => ⟨S1024x1024, .bf16⟩
  | .hbm, ⟨28, _⟩ => ⟨S1024x1024, .bf16⟩
  | .hbm, ⟨29, _⟩ => ⟨S1024x1024, .bf16⟩
  | .hbm, ⟨30, _⟩ => ⟨S1024x1024, .bf16⟩
  | .hbm, ⟨31, _⟩ => ⟨S1024x1024, .bf16⟩
  | .hbm, ⟨32, _⟩ => ⟨S1024x1024, .bf16⟩
  | .hbm, ⟨33, _⟩ => ⟨S1024x1024, .bf16⟩
  | .hbm, ⟨34, _⟩ => ⟨S1024x1024, .bf16⟩
  | .hbm, ⟨35, _⟩ => ⟨S1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24_0 : Ref sig .tc := ⟨.hbm, 43, rfl⟩
abbrev main_v24_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1024.size a ≤ S4096x1024.size a
  hwx0_15 : ∀ i : grid0.Coords, EltTy.bits .f32 = 32 ∨ (Rect.block (s := S4096x1024) S256x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x1024.size a ≤ S4096x1024.size a
  hwx0_16 : ∀ i : grid0.Coords, EltTy.bits .f32 = 32 ∨ (Rect.block (s := S4096x1024) S256x1024.size (cc0_transform_16 i) (hinb0_16 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v21) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v23) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v24_0) S256x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v24_1) S256x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S4096, .f32⟩
  | .hbm, ⟨26, _⟩ => ⟨S1024x4096, .f32⟩
  | .hbm, ⟨27, _⟩ => ⟨S4096x4096, .f32⟩
  | .hbm, ⟨28, _⟩ => ⟨S1024x4096, .f32⟩
  | .hbm, ⟨29, _⟩ => ⟨S4096x4096, .f32⟩
  | .hbm, ⟨30, _⟩ => ⟨S4096x4096, .f32⟩
  | .hbm, ⟨31, _⟩ => ⟨S1x4096, .f32⟩
  | .hbm, ⟨32, _⟩ => ⟨S4096x4096, .f32⟩
  | .hbm, ⟨33, _⟩ => ⟨S4096x4096, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.Spec.lean ====
/-
  The LSTM cell as mathematics, over the extended reals, index by index.

  One gate's pre-activation at batch row `b` and hidden unit `j` is
      (Σ_k h[b,k]·Wh[j,k]  +  Σ_k x[b,k]·Wx[j,k])  +  (bh[j] + bx[j]),
  the two matrix products of the activations with the TRANSPOSED weights added first, the summed biases last. The new
  cell state is σ(f)·c + σ(i)·tanh(g) and the new hidden state tanh(c')·σ(o), where σ is the logistic function
  1 / (1 + e^(-t)) with its limits 0 and 1 at the infinities. Both programs of the certificate are shown to compute
  exactly these two functions of the nineteen argument arrays; nothing here is about either program.
-/
import Idealize.ShloMosaic.PureOps.Ideal
import Idealize.ShloMosaic.Lib.ValueIdx

noncomputable section

open scoped BigOperators

namespace Cert.Lstm

open Idealize.ShloMosaic Idealize.ShloMosaic.ValueIdx

/-- Activations and results: batch 4096 by 1024 features. -/
abbrev Act : Shape := ⟨2, ![4096, 1024]⟩
/-- One gate's weight matrix, output unit by input feature. -/
abbrev Wgt : Shape := ⟨2, ![1024, 1024]⟩
/-- One gate's bias. -/
abbrev Bias : Shape := ⟨1, ![1024]⟩

/-- A gate before its nonlinearity: h·Whᵀ + x·Wxᵀ, then the two biases' sum. -/
def gatePre (h x : Act.Idx → EReal) (Wh Wx : Wgt.Idx → EReal) (bh bx : Bias.Idx → EReal) : Act.Idx → EReal :=
  fun i => (∑ k : Fin 1024, h (ix2 (i 0) k) * Wh (ix2 (i 1) k) + ∑ k : Fin 1024, x (ix2 (i 0) k) * Wx (ix2 (i 1) k))
    + (bh (ix1 (i 1)) + bx (ix1 (i 1)))

/-- The new cell state from the forget, input and candidate pre-activations and the old cell state. -/
def cellC (pf pi pg c : Act.Idx → EReal) : Act.Idx → EReal :=
  fun i => Ideal.logistic (pf i) * c i + Ideal.logistic (pi i) * Ideal.tanh (pg i)

/-- The new hidden state: the squashed new cell state through the output gate. -/
def cellH (pf pi pg po c : Act.Idx → EReal) : Act.Idx → EReal :=
  fun i => Ideal.tanh (cellC pf pi pg c i) * Ideal.logistic (po i)

end Cert.Lstm

end
-- ==== Proof.Payload.lean ====
/-
  The kernel body's arithmetic read at ONE element of a block, at the ideal values.

  The body loads a 256-row block of x, of h and of c, the eight transposed weight matrices and the four bias rows, and
  stores two 256 x 1024 blocks. Read at row p and column q of the block:
    * a matrix product into the zero accumulator is the plain sum over the 1024 contracted positions of the products,
      Σ_k l(p,k)·r(k,q): no accumulator term (0 + s = s) and no order left in it;
    * the bias row, shape [1,1024], broadcast over the rows is its entry (0,q);
    * the narrowing of x and h to sixteen bits is the identity on extended reals.
  So each gate's pre-activation payload is (Σ_k h(p,k)·Wh(k,q) + Σ_k x(p,k)·Wx(k,q)) + b(0,q), the stored cell block is
  σ(f)·c + σ(i)·tanh(g) and the stored hidden block tanh(of that)·σ(o), element by element.
-/
import proofs.«182195_j45054206935275_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The matrix product's operand indices: rows times columns, one contracted axis -/

theorem lhs_ax0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_ax1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_ax0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_ax1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A [256,1024] x [1024,1024] product into the zero block, at (p,q): the sum over k of l(p,k)·r(k,q). -/
theorem matmul_at (l : FVec Ideal S256x1024 .bf16) (r : FVec Ideal S1024x1024 .bf16) (p : Fin 256) (q : Fin 1024) :
    matmul dot_S256x1024_S1024x1024_S256x1024_1_0_0_1_n_n none l r (constant (F := Ideal) S256x1024 .f32 0x00000000#32) (ix2 p q)
      = ∑ k : Fin 1024, l (ix2 p k) * r (ix2 k q) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun a => Fin.ext (by
    match a with
    | ⟨0, _⟩ => exact lhs_ax0 _ _
    | ⟨1, _⟩ => exact (lhs_ax1 _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun a => Fin.ext (by
    match a with
    | ⟨0, _⟩ => exact (rhs_ax0 _ _).trans hk
    | ⟨1, _⟩ => exact rhs_ax1 _ _)
  rw [el, er]

/-- A bias row broadcast over the block's rows reads its entry in the column. -/
theorem bias_at (b : Vec Ideal S1x1024 .f32) (p : Fin 256) (q : Fin 1024) :
    broadcastTo S256x1024 (shapeCast S1x1024 b shapeCasts_S1x1024_S1x1024) broadcasts_S1x1024_S256x1024 (ix2 p q)
      = b (ix2 (0 : Fin 1) q) := by
  rw [shapeCast_self]
  exact broadcastTo_apply b broadcasts_S1x1024_S256x1024 (ix2 p q) (ix2 (0 : Fin 1) q) (fun a => match a with
    | ⟨0, _⟩ => by show 0 = (if (1 : Nat) = 1 then 0 else p.val); rw [if_pos rfl]
    | ⟨1, _⟩ => by show q.val = (if (1024 : Nat) = 1 then 0 else q.val); rw [if_neg (by decide)])

/-- The shared shape of the three gates computed first: two products added, then the bias row. -/
theorem gate_at (x0 x1 : Vec Ideal S256x1024 .f32) (wh wx : Vec Ideal S1024x1024 .bf16) (b : Vec Ideal S1x1024 .f32)
    (p : Fin 256) (q : Fin 1024) :
    k0_pay5 x0 x1 wh wx b (ix2 p q)
      = (∑ k : Fin 1024, x1 (ix2 p k) * wh (ix2 k q) + ∑ k : Fin 1024, x0 (ix2 p k) * wx (ix2 k q)) + b (ix2 (0 : Fin 1) q) := by
  unfold k0_pay5 k0_pay4 k0_pay3
  show (matmul dot_S256x1024_S1024x1024_S256x1024_1_0_0_1_n_n none _ _ _ (ix2 p q) + matmul dot_S256x1024_S1024x1024_S256x1024_1_0_0_1_n_n none _ _ _ (ix2 p q)) + _ = _
  rw [matmul_at, matmul_at, bias_at]
  simp only [shapeCast_self]
  rfl

/-- The candidate gate's products, whose bias row the cell payload adds: the same two sums, no bias yet. -/
theorem products_at (x0 x1 : Vec Ideal S256x1024 .f32) (wh wx : Vec Ideal S1024x1024 .bf16) (p : Fin 256) (q : Fin 1024) :
    k0_pay7 x0 x1 wh wx (ix2 p q)
      = ∑ k : Fin 1024, x1 (ix2 p k) * wh (ix2 k q) + ∑ k : Fin 1024, x0 (ix2 p k) * wx (ix2 k q) := by
  unfold k0_pay7 k0_pay4 k0_pay3
  show matmul dot_S256x1024_S1024x1024_S256x1024_1_0_0_1_n_n none _ _ _ (ix2 p q) + matmul dot_S256x1024_S1024x1024_S256x1024_1_0_0_1_n_n none _ _ _ (ix2 p q) = _
  rw [matmul_at, matmul_at]
  simp only [shapeCast_self]
  rfl

/-- One gate's pre-activation on a block, from the block of h, the block of x, the two transposed weight matrices and the
    bias row: at (p,q), (Σ_k h(p,k)·Wh(k,q) + Σ_k x(p,k)·Wx(k,q)) + b(0,q). -/
def blockGate (hb xb : Vec Ideal S256x1024 .f32) (wh wx : Vec Ideal S1024x1024 .bf16) (b : Vec Ideal S1x1024 .f32)
    (p : Fin 256) (q : Fin 1024) : EReal :=
  (∑ k : Fin 1024, hb (ix2 p k) * wh (ix2 k q) + ∑ k : Fin 1024, xb (ix2 p k) * wx (ix2 k q)) + b (ix2 (0 : Fin 1) q)

/-- The new cell block at (p,q), from the three gates computed first and the old cell block. -/
def blockCell (pf pi pg : EReal) (cb : Vec Ideal S256x1024 .f32) (p : Fin 256) (q : Fin 1024) : EReal :=
  Ideal.logistic pf * cb (ix2 p q) + Ideal.logistic pi * Ideal.tanh pg

/-- THE STORED CELL BLOCK, element by element: the body's payload for the new cell state over its fifteen loads. -/
theorem cell_at (x0 x1 x2 : Vec Ideal S256x1024 .f32) (wfh wfx wih wix wgh wgx : Vec Ideal S1024x1024 .bf16)
    (bf bi bg : Vec Ideal S1x1024 .f32) (p : Fin 256) (q : Fin 1024) :
    k0_pay1 (k0_pay5 x0 x1 wfh wfx bf) (k0_pay6 x0 x1 wih wix bi) (k0_pay7 x0 x1 wgh wgx) bg x2 (ix2 p q)
      = blockCell (blockGate x1 x0 wfh wfx bf p q) (blockGate x1 x0 wih wix bi p q) (blockGate x1 x0 wgh wgx bg p q) x2 p q := by
  unfold k0_pay1
  show (Ideal.logistic (k0_pay5 x0 x1 wfh wfx bf (ix2 p q)) * x2 (ix2 p q)
      + Ideal.logistic (k0_pay6 x0 x1 wih wix bi (ix2 p q)) * Ideal.tanh (k0_pay7 x0 x1 wgh wgx (ix2 p q)
        + broadcastTo S256x1024 (shapeCast S1x1024 bg shapeCasts_S1x1024_S1x1024) broadcasts_S1x1024_S256x1024 (ix2 p q))) = _
  rw [gate_at, show k0_pay6 x0 x1 wih wix bi = k0_pay5 x0 x1 wih wix bi from rfl, gate_at, products_at, bias_at]
  rfl

/-- THE STORED HIDDEN BLOCK, element by element: the squashed new cell state through the output gate, whose pre-activation
    the payload computes in line from the narrowed activations. -/
theorem hidden_at (x0 x1 x2 : Vec Ideal S256x1024 .f32) (wfh wfx wih wix wgh wgx woh wox : Vec Ideal S1024x1024 .bf16)
    (bf bi bg bo : Vec Ideal S1x1024 .f32) (p : Fin 256) (q : Fin 1024) :
    k0_pay2 (k0_pay3 x0) (k0_pay4 x1) (k0_pay5 x0 x1 wfh wfx bf) (k0_pay6 x0 x1 wih wix bi) (k0_pay7 x0 x1 wgh wgx) bg woh wox bo x2 (ix2 p q)
      = Ideal.tanh (blockCell (blockGate x1 x0 wfh wfx bf p q) (blockGate x1 x0 wih wix bi p q) (blockGate x1 x0 wgh wgx bg p q) x2 p q)
        * Ideal.logistic (blockGate x1 x0 woh wox bo p q) := by
  unfold k0_pay2
  show Ideal.tanh (k0_pay1 (k0_pay5 x0 x1 wfh wfx bf) (k0_pay6 x0 x1 wih wix bi) (k0_pay7 x0 x1 wgh wgx) bg x2 (ix2 p q))
      * Ideal.logistic ((matmul dot_S256x1024_S1024x1024_S256x1024_1_0_0_1_n_n none (k0_pay4 x1) _ _ (ix2 p q) + matmul dot_S256x1024_S1024x1024_S256x1024_1_0_0_1_n_n none (k0_pay3 x0) _ _ (ix2 p q))
        + broadcastTo S256x1024 (shapeCast S1x1024 bo shapeCasts_S1x1024_S1x1024) broadcasts_S1x1024_S256x1024 (ix2 p q)) = _
  rw [cell_at, matmul_at, matmul_at, bias_at]
  simp only [shapeCast_self]
  rfl

end Cert.KernelIdeal.Pay

end
-- ==== Proof.Blocks.lean ====
import proofs.«182195_j45054206935275_1_alg».proof.Proof.Gen.KernelIdeal.Frame
import proofs.«182195_j45054206935275_1_alg».proof.Proof.Spec
import proofs.«182195_j45054206935275_1_alg».proof.Proof.Payload
import Idealize.ShloMosaic.Lib.StableHlo.Run
import Idealize.ShloMosaic.Lib.ValueIdx
import Idealize.ShloMosaic.Lib.Pipeline.Value

-- an array the host prepares late is read past every earlier host operation, one by one: twenty-four steps for the last
set_option maxHeartbeats 1600000

noncomputable section

open scoped BigOperators

/-
  What the kernel's windows hold, in terms of the argument arrays.

  The region is entered after the host has prepared twelve arrays: each of the eight weight matrices narrowed to sixteen
  bits (the identity on extended reals) and TRANSPOSED, so that entry (k,q) of a prepared matrix is entry (q,k) of the
  argument; and each gate's two bias vectors added and laid out as a one-row matrix, whose entry (0,q) is bh(q) + bx(q).
  Each of these twelve windows has a single block, the whole array, at every grid point. The three activation windows
  (x, h, c) move with the grid: at point t their block is rows 256·t … 256·t + 255 of the argument. From these reads one
  gate's pre-activation on a block is the gate's pre-activation on the arrays at the row 256·t + p.
-/

namespace Cert.KernelIdeal.Blk

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-! ## The arrays the host prepares -/

theorem V_v1 (c : Dev nD) : (V m c main_v1 : S1024x1024.Idx → EReal) = transpose S1024x1024 [1, 0] (truncf (F := Ideal) .bf16 (m ((c : Thread nD τ).loc main_arg3)) bitsLt_bf16_f32) transposes_S1024x1024_S1024x1024_1_0 := by
  dsimp only [V, hostOps0]
  after_results
theorem V_v9 (c : Dev nD) : (V m c main_v9 : S1024x1024.Idx → EReal) = transpose S1024x1024 [1, 0] (truncf (F := Ideal) .bf16 (m ((c : Thread nD τ).loc main_arg5)) bitsLt_bf16_f32) transposes_S1024x1024_S1024x1024_1_0 := by
  dsimp only [V, hostOps0]
  after_results
theorem V_v3 (c : Dev nD) : (V m c main_v3 : S1024x1024.Idx → EReal) = transpose S1024x1024 [1, 0] (truncf (F := Ideal) .bf16 (m ((c : Thread nD τ).loc main_arg7)) bitsLt_bf16_f32) transposes_S1024x1024_S1024x1024_1_0 := by
  dsimp only [V, hostOps0]
  after_results
theorem V_v11 (c : Dev nD) : (V m c main_v11 : S1024x1024.Idx → EReal) = transpose S1024x1024 [1, 0] (truncf (F := Ideal) .bf16 (m ((c : Thread nD τ).loc main_arg9)) bitsLt_bf16_f32) transposes_S1024x1024_S1024x1024_1_0 := by
  dsimp only [V, hostOps0]
  after_results
theorem V_v5 (c : Dev nD) : (V m c main_v5 : S1024x1024.Idx → EReal) = transpose S1024x1024 [1, 0] (truncf (F := Ideal) .bf16 (m ((c : Thread nD τ).loc main_arg11)) bitsLt_bf16_f32) transposes_S1024x1024_S1024x1024_1_0 := by
  dsimp only [V, hostOps0]
  after_results
theorem V_v13 (c : Dev nD) : (V m c main_v13 : S1024x1024.Idx → EReal) = transpose S1024x1024 [1, 0] (truncf (F := Ideal) .bf16 (m ((c : Thread nD τ).loc main_arg13)) bitsLt_bf16_f32) transposes_S1024x1024_S1024x1024_1_0 := by
  dsimp only [V, hostOps0]
  after_results
theorem V_v7 (c : Dev nD) : (V m c main_v7 : S1024x1024.Idx → EReal) = transpose S1024x1024 [1, 0] (truncf (F := Ideal) .bf16 (m ((c : Thread nD τ).loc main_arg15)) bitsLt_bf16_f32) transposes_S1024x1024_S1024x1024_1_0 := by
  dsimp only [V, hostOps0]
  after_results
theorem V_v15 (c : Dev nD) : (V m c main_v15 : S1024x1024.Idx → EReal) = transpose S1024x1024 [1, 0] (truncf (F := Ideal) .bf16 (m ((c : Thread nD τ).loc main_arg17)) bitsLt_bf16_f32) transposes_S1024x1024_S1024x1024_1_0 := by
  dsimp only [V, hostOps0]
  after_results

theorem V_v17 (c : Dev nD) : (V m c main_v17 : S1x1024.Idx → EReal) = shapeCast S1x1024 (addf (F := Ideal) (s := S1024) (φ := .f32) (m ((c : Thread nD τ).loc main_arg4)) (m ((c : Thread nD τ).loc main_arg6))) shapeCasts_S1024_S1x1024 := by
  dsimp only [V, hostOps0]
  after_results
  rfl
theorem V_v19 (c : Dev nD) : (V m c main_v19 : S1x1024.Idx → EReal) = shapeCast S1x1024 (addf (F := Ideal) (s := S1024) (φ := .f32) (m ((c : Thread nD τ).loc main_arg8)) (m ((c : Thread nD τ).loc main_arg10))) shapeCasts_S1024_S1x1024 := by
  dsimp only [V, hostOps0]
  after_results
  rfl
theorem V_v21 (c : Dev nD) : (V m c main_v21 : S1x1024.Idx → EReal) = shapeCast S1x1024 (addf (F := Ideal) (s := S1024) (φ := .f32) (m ((c : Thread nD τ).loc main_arg12)) (m ((c : Thread nD τ).loc main_arg14))) shapeCasts_S1024_S1x1024 := by
  dsimp only [V, hostOps0]
  after_results
  rfl
theorem V_v23 (c : Dev nD) : (V m c main_v23 : S1x1024.Idx → EReal) = shapeCast S1x1024 (addf (F := Ideal) (s := S1024) (φ := .f32) (m ((c : Thread nD τ).loc main_arg16)) (m ((c : Thread nD τ).loc main_arg18))) shapeCasts_S1024_S1x1024 := by
  dsimp only [V, hostOps0]
  after_results
  rfl

/-- A narrowed, transposed matrix at (k,q) is the matrix at (q,k). -/
theorem wT_at (w : S1024x1024.Idx → EReal) (k q : Fin 1024) :
    transpose S1024x1024 [1, 0] (truncf (F := Ideal) (φ := .f32) .bf16 w bitsLt_bf16_f32) transposes_S1024x1024_S1024x1024_1_0 (ix2 k q) = w (ix2 q k) := by
  refine (transpose_apply [1, 0] _ transposes_S1024x1024_S1024x1024_1_0 (ix2 k q) (ix2 q k) (fun b => match b with
    | ⟨0, _⟩ => rfl
    | ⟨1, _⟩ => rfl)).trans ?_
  rfl

/-- The summed biases as a one-row matrix, at (0,q). -/
theorem brow_at (a b : S1024.Idx → EReal) (q : Fin 1024) :
    shapeCast S1x1024 (addf (F := Ideal) (s := S1024) (φ := .f32) a b) shapeCasts_S1024_S1x1024 (ix2 (0 : Fin 1) q) = a (ix1 q) + b (ix1 q) := by
  refine (shapeCast_apply _ shapeCasts_S1024_S1x1024 (ix2 (0 : Fin 1) q) (ix1 q) ?_).trans rfl
  rw [Shape.rowMajor_val_one, Shape.rowMajor_val_two]
  show q.val = 0 * 1024 + q.val
  omega

/-! ## The weight windows: one block, the whole prepared matrix -/

theorem w3_at (c : Dev nD) (t : Fin cfg0.N) (k q : Fin 1024) :
    (iblk m c 3 t : Vec Ideal S1024x1024 .bf16) (ix2 k q) = (m ((c : Thread nD τ).loc main_arg3) : S1024x1024.Idx → EReal) (ix2 q k) := by
  unfold iblk
  rw [View.read_apply]
  show V m c main_v1 _ = _
  rw [V_v1]
  refine Eq.trans (congrArg _ ?_) (wT_at _ k q)
  funext a; apply Fin.ext
  match a with
  | ⟨0, _⟩ => show win0_3.index t (0 : Fin 2) * 1024 + 1 * k.val = k.val; rw [show win0_3.index t (0 : Fin 2) = 0 from rfl]; omega
  | ⟨1, _⟩ => show win0_3.index t (1 : Fin 2) * 1024 + 1 * q.val = q.val; rw [show win0_3.index t (1 : Fin 2) = 0 from rfl]; omega
theorem w4_at (c : Dev nD) (t : Fin cfg0.N) (k q : Fin 1024) :
    (iblk m c 4 t : Vec Ideal S1024x1024 .bf16) (ix2 k q) = (m ((c : Thread nD τ).loc main_arg5) : S1024x1024.Idx → EReal) (ix2 q k) := by
  unfold iblk
  rw [View.read_apply]
  show V m c main_v9 _ = _
  rw [V_v9]
  refine Eq.trans (congrArg _ ?_) (wT_at _ k q)
  funext a; apply Fin.ext
  match a with
  | ⟨0, _⟩ => show win0_4.index t (0 : Fin 2) * 1024 + 1 * k.val = k.val; rw [show win0_4.index t (0 : Fin 2) = 0 from rfl]; omega
  | ⟨1, _⟩ => show win0_4.index t (1 : Fin 2) * 1024 + 1 * q.val = q.val; rw [show win0_4.index t (1 : Fin 2) = 0 from rfl]; omega
theorem w5_at (c : Dev nD) (t : Fin cfg0.N) (k q : Fin 1024) :
    (iblk m c 5 t : Vec Ideal S1024x1024 .bf16) (ix2 k q) = (m ((c : Thread nD τ).loc main_arg7) : S1024x1024.Idx → EReal) (ix2 q k) := by
  unfold iblk
  rw [View.read_apply]
  show V m c main_v3 _ = _
  rw [V_v3]
  refine Eq.trans (congrArg _ ?_) (wT_at _ k q)
  funext a; apply Fin.ext
  match a with
  | ⟨0, _⟩ => show win0_5.index t (0 : Fin 2) * 1024 + 1 * k.val = k.val; rw [show win0_5.index t (0 : Fin 2) = 0 from rfl]; omega
  | ⟨1, _⟩ => show win0_5.index t (1 : Fin 2) * 1024 + 1 * q.val = q.val; rw [show win0_5.index t (1 : Fin 2) = 0 from rfl]; omega
theorem w6_at (c : Dev nD) (t : Fin cfg0.N) (k q : Fin 1024) :
    (iblk m c 6 t : Vec Ideal S1024x1024 .bf16) (ix2 k q) = (m ((c : Thread nD τ).loc main_arg9) : S1024x1024.Idx → EReal) (ix2 q k) := by
  unfold iblk
  rw [View.read_apply]
  show V m c main_v11 _ = _
  rw [V_v11]
  refine Eq.trans (congrArg _ ?_) (wT_at _ k q)
  funext a; apply Fin.ext
  match a with
  | ⟨0, _⟩ => show win0_6.index t (0 : Fin 2) * 1024 + 1 * k.val = k.val; rw [show win0_6.index t (0 : Fin 2) = 0 from rfl]; omega
  | ⟨1, _⟩ => show win0_6.index t (1 : Fin 2) * 1024 + 1 * q.val = q.val; rw [show win0_6.index t (1 : Fin 2) = 0 from rfl]; omega
theorem w7_at (c : Dev nD) (t : Fin cfg0.N) (k q : Fin 1024) :
    (iblk m c 7 t : Vec Ideal S1024x1024 .bf16) (ix2 k q) = (m ((c : Thread nD τ).loc main_arg11) : S1024x1024.Idx → EReal) (ix2 q k) := by
  unfold iblk
  rw [View.read_apply]
  show V m c main_v5 _ = _
  rw [V_v5]
  refine Eq.trans (congrArg _ ?_) (wT_at _ k q)
  funext a; apply Fin.ext
  match a with
  | ⟨0, _⟩ => show win0_7.index t (0 : Fin 2) * 1024 + 1 * k.val = k.val; rw [show win0_7.index t (0 : Fin 2) = 0 from rfl]; omega
  | ⟨1, _⟩ => show win0_7.index t (1 : Fin 2) * 1024 + 1 * q.val = q.val; rw [show win0_7.index t (1 : Fin 2) = 0 from rfl]; omega
theorem w8_at (c : Dev nD) (t : Fin cfg0.N) (k q : Fin 1024) :
    (iblk m c 8 t : Vec Ideal S1024x1024 .bf16) (ix2 k q) = (m ((c : Thread nD τ).loc main_arg13) : S1024x1024.Idx → EReal) (ix2 q k) := by
  unfold iblk
  rw [View.read_apply]
  show V m c main_v13 _ = _
  rw [V_v13]
  refine Eq.trans (congrArg _ ?_) (wT_at _ k q)
  funext a; apply Fin.ext
  match a with
  | ⟨0, _⟩ => show win0_8.index t (0 : Fin 2) * 1024 + 1 * k.val = k.val; rw [show win0_8.index t (0 : Fin 2) = 0 from rfl]; omega
  | ⟨1, _⟩ => show win0_8.index t (1 : Fin 2) * 1024 + 1 * q.val = q.val; rw [show win0_8.index t (1 : Fin 2) = 0 from rfl]; omega
theorem w9_at (c : Dev nD) (t : Fin cfg0.N) (k q : Fin 1024) :
    (iblk m c 9 t : Vec Ideal S1024x1024 .bf16) (ix2 k q) = (m ((c : Thread nD τ).loc main_arg15) : S1024x1024.Idx → EReal) (ix2 q k) := by
  unfold iblk
  rw [View.read_apply]
  show V m c main_v7 _ = _
  rw [V_v7]
  refine Eq.trans (congrArg _ ?_) (wT_at _ k q)
  funext a; apply Fin.ext
  match a with
  | ⟨0, _⟩ => show win0_9.index t (0 : Fin 2) * 1024 + 1 * k.val = k.val; rw [show win0_9.index t (0 : Fin 2) = 0 from rfl]; omega
  | ⟨1, _⟩ => show win0_9.index t (1 : Fin 2) * 1024 + 1 * q.val = q.val; rw [show win0_9.index t (1 : Fin 2) = 0 from rfl]; omega
theorem w10_at (c : Dev nD) (t : Fin cfg0.N) (k q : Fin 1024) :
    (iblk m c 10 t : Vec Ideal S1024x1024 .bf16) (ix2 k q) = (m ((c : Thread nD τ).loc main_arg17) : S1024x1024.Idx → EReal) (ix2 q k) := by
  unfold iblk
  rw [View.read_apply]
  show V m c main_v15 _ = _
  rw [V_v15]
  refine Eq.trans (congrArg _ ?_) (wT_at _ k q)
  funext a; apply Fin.ext
  match a with
  | ⟨0, _⟩ => show win0_10.index t (0 : Fin 2) * 1024 + 1 * k.val = k.val; rw [show win0_10.index t (0 : Fin 2) = 0 from rfl]; omega
  | ⟨1, _⟩ => show win0_10.index t (1 : Fin 2) * 1024 + 1 * q.val = q.val; rw [show win0_10.index t (1 : Fin 2) = 0 from rfl]; omega

/-! ## The bias windows: one block, the whole one-row matrix -/

theorem b11_at (c : Dev nD) (t : Fin cfg0.N) (bh bx : S1024.Idx → EReal)
    (hbh : bh = m ((c : Thread nD τ).loc main_arg4)) (hbx : bx = m ((c : Thread nD τ).loc main_arg6)) (q : Fin 1024) :
    (iblk m c 11 t : Vec Ideal S1x1024 .f32) (ix2 (0 : Fin 1) q) = bh (ix1 q) + bx (ix1 q) := by
  subst hbh hbx
  unfold iblk
  rw [View.read_apply]
  show V m c main_v17 _ = _
  rw [V_v17]
  refine Eq.trans (congrArg _ ?_) (brow_at _ _ q)
  funext a; apply Fin.ext
  match a with
  | ⟨0, _⟩ => show win0_11.index t (0 : Fin 2) * 1 + 1 * 0 = 0; rw [show win0_11.index t (0 : Fin 2) = 0 from rfl]
  | ⟨1, _⟩ => show win0_11.index t (1 : Fin 2) * 1024 + 1 * q.val = q.val; rw [show win0_11.index t (1 : Fin 2) = 0 from rfl]; omega
theorem b12_at (c : Dev nD) (t : Fin cfg0.N) (bh bx : S1024.Idx → EReal)
    (hbh : bh = m ((c : Thread nD τ).loc main_arg8)) (hbx : bx = m ((c : Thread nD τ).loc main_arg10)) (q : Fin 1024) :
    (iblk m c 12 t : Vec Ideal S1x1024 .f32) (ix2 (0 : Fin 1) q) = bh (ix1 q) + bx (ix1 q) := by
  subst hbh hbx
  unfold iblk
  rw [View.read_apply]
  show V m c main_v19 _ = _
  rw [V_v19]
  refine Eq.trans (congrArg _ ?_) (brow_at _ _ q)
  funext a; apply Fin.ext
  match a with
  | ⟨0, _⟩ => show win0_12.index t (0 : Fin 2) * 1 + 1 * 0 = 0; rw [show win0_12.index t (0 : Fin 2) = 0 from rfl]
  | ⟨1, _⟩ => show win0_12.index t (1 : Fin 2) * 1024 + 1 * q.val = q.val; rw [show win0_12.index t (1 : Fin 2) = 0 from rfl]; omega
theorem b13_at (c : Dev nD) (t : Fin cfg0.N) (bh bx : S1024.Idx → EReal)
    (hbh : bh = m ((c : Thread nD τ).loc main_arg12)) (hbx : bx = m ((c : Thread nD τ).loc main_arg14)) (q : Fin 1024) :
    (iblk m c 13 t : Vec Ideal S1x1024 .f32) (ix2 (0 : Fin 1) q) = bh (ix1 q) + bx (ix1 q) := by
  subst hbh hbx
  unfold iblk
  rw [View.read_apply]
  show V m c main_v21 _ = _
  rw [V_v21]
  refine Eq.trans (congrArg _ ?_) (brow_at _ _ q)
  funext a; apply Fin.ext
  match a with
  | ⟨0, _⟩ => show win0_13.index t (0 : Fin 2) * 1 + 1 * 0 = 0; rw [show win0_13.index t (0 : Fin 2) = 0 from rfl]
  | ⟨1, _⟩ => show win0_13.index t (1 : Fin 2) * 1024 + 1 * q.val = q.val; rw [show win0_13.index t (1 : Fin 2) = 0 from rfl]; omega
theorem b14_at (c : Dev nD) (t : Fin cfg0.N) (bh bx : S1024.Idx → EReal)
    (hbh : bh = m ((c : Thread nD τ).loc main_arg16)) (hbx : bx = m ((c : Thread nD τ).loc main_arg18)) (q : Fin 1024) :
    (iblk m c 14 t : Vec Ideal S1x1024 .f32) (ix2 (0 : Fin 1) q) = bh (ix1 q) + bx (ix1 q) := by
  subst hbh hbx
  unfold iblk
  rw [View.read_apply]
  show V m c main_v23 _ = _
  rw [V_v23]
  refine Eq.trans (congrArg _ ?_) (brow_at _ _ q)
  funext a; apply Fin.ext
  match a with
  | ⟨0, _⟩ => show win0_14.index t (0 : Fin 2) * 1 + 1 * 0 = 0; rw [show win0_14.index t (0 : Fin 2) = 0 from rfl]
  | ⟨1, _⟩ => show win0_14.index t (1 : Fin 2) * 1024 + 1 * q.val = q.val; rw [show win0_14.index t (1 : Fin 2) = 0 from rfl]; omega

/-! ## The activation windows and the two results: block t is rows 256·t … 256·t + 255 -/

/-- The printed index maps of the five row-blocked windows, decided over the sixteen grid points: block (t, 0). -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 2) = t.val ∧ win0_15.index t (1 : Fin 2) = 0
    ∧ win0_16.index t (0 : Fin 2) = t.val ∧ win0_16.index t (1 : Fin 2) = 0 :=
  (by decide +kernel : ∀ t : Fin grid0.N, _)

theorem x_at (c : Dev nD) (t : Fin cfg0.N) (p : Fin 256) (k : Fin 1024) (hr : 256 * t.val + p.val < 4096) :
    (iblk m c 0 t : Vec Ideal S256x1024 .f32) (ix2 p k) = (m ((c : Thread nD τ).loc main_arg0) : S4096x1024.Idx → EReal) (ix2 ⟨256 * t.val + p.val, hr⟩ k) := by
  unfold iblk
  rw [View.read_apply]
  show V m c main_arg0 _ = _
  rw [V_main_arg0]
  congr 1
  funext a
  apply Fin.ext
  match a with
  | ⟨0, _⟩ => show win0_0.index t (0 : Fin 2) * 256 + 1 * p.val = 256 * t.val + p.val; rw [(idx_rows t).1]; omega
  | ⟨1, _⟩ => show win0_0.index t (1 : Fin 2) * 1024 + 1 * k.val = k.val; rw [(idx_rows t).2.1]; omega
theorem h_at (c : Dev nD) (t : Fin cfg0.N) (p : Fin 256) (k : Fin 1024) (hr : 256 * t.val + p.val < 4096) :
    (iblk m c 1 t : Vec Ideal S256x1024 .f32) (ix2 p k) = (m ((c : Thread nD τ).loc main_arg1) : S4096x1024.Idx → EReal) (ix2 ⟨256 * t.val + p.val, hr⟩ k) := by
  unfold iblk
  rw [View.read_apply]
  show V m c main_arg1 _ = _
  rw [V_main_arg1]
  congr 1
  funext a
  apply Fin.ext
  match a with
  | ⟨0, _⟩ => show win0_1.index t (0 : Fin 2) * 256 + 1 * p.val = 256 * t.val + p.val; rw [(idx_rows t).2.2.1]; omega
  | ⟨1, _⟩ => show win0_1.index t (1 : Fin 2) * 1024 + 1 * k.val = k.val; rw [(idx_rows t).2.2.2.1]; omega
theorem c_at (c : Dev nD) (t : Fin cfg0.N) (p : Fin 256) (k : Fin 1024) (hr : 256 * t.val + p.val < 4096) :
    (iblk m c 2 t : Vec Ideal S256x1024 .f32) (ix2 p k) = (m ((c : Thread nD τ).loc main_arg2) : S4096x1024.Idx → EReal) (ix2 ⟨256 * t.val + p.val, hr⟩ k) := by
  unfold iblk
  rw [View.read_apply]
  show V m c main_arg2 _ = _
  rw [V_main_arg2]
  congr 1
  funext a
  apply Fin.ext
  match a with
  | ⟨0, _⟩ => show win0_2.index t (0 : Fin 2) * 256 + 1 * p.val = 256 * t.val + p.val; rw [(idx_rows t).2.2.2.2.1]; omega
  | ⟨1, _⟩ => show win0_2.index t (1 : Fin 2) * 1024 + 1 * k.val = k.val; rw [(idx_rows t).2.2.2.2.2.1]; omega

/-! ## One gate on a block is the gate on the arrays -/

/-- For ANY prepared weight blocks and bias row that read as the transposes and the summed biases of arrays `Wh`, `Wx`,
    `bh`, `bx`, the gate's pre-activation on point t's blocks at (p,q) is the gate's pre-activation on the arrays at
    row 256·t + p and column q: the sums agree term by term. -/
theorem gate_block (c : Dev nD) (t : Fin cfg0.N) (p : Fin 256) (q : Fin 1024) (hr : 256 * t.val + p.val < 4096)
    (wh wx : Vec Ideal S1024x1024 .bf16) (b : Vec Ideal S1x1024 .f32)
    (Wh Wx : Cert.Lstm.Wgt.Idx → EReal) (bh bx : Cert.Lstm.Bias.Idx → EReal)
    (hwh : ∀ k q : Fin 1024, wh (ix2 k q) = Wh (ix2 q k)) (hwx : ∀ k q : Fin 1024, wx (ix2 k q) = Wx (ix2 q k))
    (hb : ∀ q : Fin 1024, b (ix2 (0 : Fin 1) q) = bh (ix1 q) + bx (ix1 q)) :
    Pay.blockGate (iblk m c 1 t) (iblk m c 0 t) wh wx b p q
      = Cert.Lstm.gatePre (m ((c : Thread nD τ).loc main_arg1)) (m ((c : Thread nD τ).loc main_arg0)) Wh Wx bh bx
          (ix2 ⟨256 * t.val + p.val, hr⟩ q) := by
  unfold Pay.blockGate Cert.Lstm.gatePre
  rw [hb q]
  refine congrArg₂ (· + ·) (congrArg₂ (· + ·) (Finset.sum_congr rfl fun k _ => ?_) (Finset.sum_congr rfl fun k _ => ?_)) rfl
  · rw [hwh k q, h_at m c t p k hr]
  · rw [hwx k q, x_at m c t p k hr]

end Cert.KernelIdeal.Blk

end
-- ==== Proof.Final.lean ====
/-
  The kernel's two result arrays after the run are the LSTM cell of the specification.

  At grid point t the body stores a 256 x 1024 block of the new cell state and one of the new hidden state; read element
  by element (the payload's arithmetic) and with each loaded block read as rows 256·t … 256·t + 255 of an argument, or
  as a prepared weight matrix or bias row, what point t writes back is block t of the specification's function of the
  nineteen arguments. The sixteen blocks tile the [4096,1024] result — row r lies in block r / 256 — so each result array
  ends holding that function everywhere.
-/
import proofs.«182195_j45054206935275_1_alg».proof.Proof.Gen.KernelIdeal.Value
import proofs.«182195_j45054206935275_1_alg».proof.Proof.Blocks

noncomputable section

open scoped BigOperators

namespace Cert.KernelIdeal.Hand

open Cert.KernelIdeal Cert.KernelIdeal.Gen Cert.KernelIdeal.Value Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The specification at the program's arguments -/

/-- The forget gate's pre-activation: h, x, Wfh, Wfi, bfh, bfi. -/
abbrev preF (c : Dev nD) : Cert.Lstm.Act.Idx → EReal := Cert.Lstm.gatePre (m ((c : Thread nD τ).loc main_arg1)) (m ((c : Thread nD τ).loc main_arg0)) (m ((c : Thread nD τ).loc main_arg3)) (m ((c : Thread nD τ).loc main_arg5)) (m ((c : Thread nD τ).loc main_arg4)) (m ((c : Thread nD τ).loc main_arg6))
/-- The input gate's: Wih, Wii, bih, bii. -/
abbrev preI (c : Dev nD) : Cert.Lstm.Act.Idx → EReal := Cert.Lstm.gatePre (m ((c : Thread nD τ).loc main_arg1)) (m ((c : Thread nD τ).loc main_arg0)) (m ((c : Thread nD τ).loc main_arg7)) (m ((c : Thread nD τ).loc main_arg9)) (m ((c : Thread nD τ).loc main_arg8)) (m ((c : Thread nD τ).loc main_arg10))
/-- The candidate's: Wch, Wci, bch, bci. -/
abbrev preG (c : Dev nD) : Cert.Lstm.Act.Idx → EReal := Cert.Lstm.gatePre (m ((c : Thread nD τ).loc main_arg1)) (m ((c : Thread nD τ).loc main_arg0)) (m ((c : Thread nD τ).loc main_arg11)) (m ((c : Thread nD τ).loc main_arg13)) (m ((c : Thread nD τ).loc main_arg12)) (m ((c : Thread nD τ).loc main_arg14))
/-- The output gate's: Woh, Woi, boh, boi. -/
abbrev preO (c : Dev nD) : Cert.Lstm.Act.Idx → EReal := Cert.Lstm.gatePre (m ((c : Thread nD τ).loc main_arg1)) (m ((c : Thread nD τ).loc main_arg0)) (m ((c : Thread nD τ).loc main_arg15)) (m ((c : Thread nD τ).loc main_arg17)) (m ((c : Thread nD τ).loc main_arg16)) (m ((c : Thread nD τ).loc main_arg18))

/-- The new cell state as a function of the arguments. -/
def newC (c : Dev nD) : Buf (Elt Ideal) ((c : Thread nD τ).loc main_v24_1) :=
  Cert.Lstm.cellC (preF m c) (preI m c) (preG m c) (m ((c : Thread nD τ).loc main_arg2))
/-- The new hidden state as a function of the arguments. -/
def newH (c : Dev nD) : Buf (Elt Ideal) ((c : Thread nD τ).loc main_v24_0) :=
  Cert.Lstm.cellH (preF m c) (preI m c) (preG m c) (preO m c) (m ((c : Thread nD τ).loc main_arg2))

theorem hz : (![0, 0] : Fin 2 → Nat) = fun _ => 0 := funext fun a => by fin_cases a <;> rfl

/-! ## What point t writes back -/

/-- Point t's new-cell block is block t of `newC`. -/
theorem flushedC_eq (c : Dev nD) (t : Fin cfg0.N) :
    (dats m 0 c).flushed 16 t = ((cfg0.win 16).blk t).view.read (Elt Ideal) (newC m c) := by
  rw [flushed16]
  unfold out0_16
  rw [View.canon_unit_zero hz]
  simp only [View.ld_unit_zero (S := S256x1024) hz, View.ld_unit_zero (S := S1024x1024) hz, View.ld_unit_zero (S := S1x1024) hz]
  funext y
  obtain ⟨p, q, rfl⟩ : ∃ (p : Fin 256) (q : Fin 1024), y = ix2 p q := ⟨y 0, y 1, eq_ix2 y⟩
  have ht : t.val < 16 := t.isLt
  have hr : 256 * t.val + p.val < 4096 := by have := p.isLt; omega
  have hemb : ((cfg0.win 16).blk t).view.emb (ix2 p q) = (ix2 ⟨256 * t.val + p.val, hr⟩ q : S4096x1024.Idx) := by
    funext a; apply Fin.ext
    match a with
    | ⟨0, _⟩ => show win0_16.index t (0 : Fin 2) * 256 + 1 * p.val = 256 * t.val + p.val; rw [(Blk.idx_rows t).2.2.2.2.2.2.2.2.1]; omega
    | ⟨1, _⟩ => show win0_16.index t (1 : Fin 2) * 1024 + 1 * q.val = q.val; rw [(Blk.idx_rows t).2.2.2.2.2.2.2.2.2]; omega
  show k0_pay1 (k0_pay5 (iblk m c 0 t) (iblk m c 1 t) (iblk m c 3 t) (iblk m c 4 t) (iblk m c 11 t))
      (k0_pay6 (iblk m c 0 t) (iblk m c 1 t) (iblk m c 5 t) (iblk m c 6 t) (iblk m c 12 t))
      (k0_pay7 (iblk m c 0 t) (iblk m c 1 t) (iblk m c 7 t) (iblk m c 8 t)) (iblk m c 13 t) (iblk m c 2 t) (ix2 p q)
    = newC m c (((cfg0.win 16).blk t).view.emb (ix2 p q))
  rw [hemb]
  refine (Pay.cell_at (iblk m c 0 t) (iblk m c 1 t) (iblk m c 2 t) (iblk m c 3 t) (iblk m c 4 t) (iblk m c 5 t) (iblk m c 6 t)
    (iblk m c 7 t) (iblk m c 8 t) (iblk m c 11 t) (iblk m c 12 t) (iblk m c 13 t) p q).trans ?_
  unfold Pay.blockCell newC Cert.Lstm.cellC
  rw [Blk.gate_block m c t p q hr (iblk m c 3 t) (iblk m c 4 t) (iblk m c 11 t) (m ((c : Thread nD τ).loc main_arg3)) (m ((c : Thread nD τ).loc main_arg5)) (m ((c : Thread nD τ).loc main_arg4)) (m ((c : Thread nD τ).loc main_arg6))
      (Blk.w3_at m c t) (Blk.w4_at m c t) (Blk.b11_at m c t _ _ rfl rfl),
    Blk.gate_block m c t p q hr (iblk m c 5 t) (iblk m c 6 t) (iblk m c 12 t) (m ((c : Thread nD τ).loc main_arg7)) (m ((c : Thread nD τ).loc main_arg9)) (m ((c : Thread nD τ).loc main_arg8)) (m ((c : Thread nD τ).loc main_arg10))
      (Blk.w5_at m c t) (Blk.w6_at m c t) (Blk.b12_at m c t _ _ rfl rfl),
    Blk.gate_block m c t p q hr (iblk m c 7 t) (iblk m c 8 t) (iblk m c 13 t) (m ((c : Thread nD τ).loc main_arg11)) (m ((c : Thread nD τ).loc main_arg13)) (m ((c : Thread nD τ).loc main_arg12)) (m ((c : Thread nD τ).loc main_arg14))
      (Blk.w7_at m c t) (Blk.w8_at m c t) (Blk.b13_at m c t _ _ rfl rfl),
    Blk.c_at m c t p q hr]

/-- Point t's new-hidden block is block t of `newH`. -/
theorem flushedH_eq (c : Dev nD) (t : Fin cfg0.N) :
    (dats m 0 c).flushed 15 t = ((cfg0.win 15).blk t).view.read (Elt Ideal) (newH m c) := by
  rw [flushed15]
  unfold out0_15
  rw [View.canon_unit_zero hz]
  simp only [View.ld_unit_zero (S := S256x1024) hz, View.ld_unit_zero (S := S1024x1024) hz, View.ld_unit_zero (S := S1x1024) hz]
  funext y
  obtain ⟨p, q, rfl⟩ : ∃ (p : Fin 256) (q : Fin 1024), y = ix2 p q := ⟨y 0, y 1, eq_ix2 y⟩
  have ht : t.val < 16 := t.isLt
  have hr : 256 * t.val + p.val < 4096 := by have := p.isLt; omega
  have hemb : ((cfg0.win 15).blk t).view.emb (ix2 p q) = (ix2 ⟨256 * t.val + p.val, hr⟩ q : S4096x1024.Idx) := by
    funext a; apply Fin.ext
    match a with
    | ⟨0, _⟩ => show win0_15.index t (0 : Fin 2) * 256 + 1 * p.val = 256 * t.val + p.val; rw [(Blk.idx_rows t).2.2.2.2.2.2.1]; omega
    | ⟨1, _⟩ => show win0_15.index t (1 : Fin 2) * 1024 + 1 * q.val = q.val; rw [(Blk.idx_rows t).2.2.2.2.2.2.2.1]; omega
  show k0_pay2 (k0_pay3 (iblk m c 0 t)) (k0_pay4 (iblk m c 1 t))
      (k0_pay5 (iblk m c 0 t) (iblk m c 1 t) (iblk m c 3 t) (iblk m c 4 t) (iblk m c 11 t))
      (k0_pay6 (iblk m c 0 t) (iblk m c 1 t) (iblk m c 5 t) (iblk m c 6 t) (iblk m c 12 t))
      (k0_pay7 (iblk m c 0 t) (iblk m c 1 t) (iblk m c 7 t) (iblk m c 8 t)) (iblk m c 13 t) (iblk m c 9 t) (iblk m c 10 t)
      (iblk m c 14 t) (iblk m c 2 t) (ix2 p q)
    = newH m c (((cfg0.win 15).blk t).view.emb (ix2 p q))
  rw [hemb]
  refine (Pay.hidden_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t) p q).trans ?_
  unfold Pay.blockCell newH Cert.Lstm.cellH Cert.Lstm.cellC
  rw [Blk.gate_block m c t p q hr (iblk m c 3 t) (iblk m c 4 t) (iblk m c 11 t) (m ((c : Thread nD τ).loc main_arg3)) (m ((c : Thread nD τ).loc main_arg5)) (m ((c : Thread nD τ).loc main_arg4)) (m ((c : Thread nD τ).loc main_arg6))
      (Blk.w3_at m c t) (Blk.w4_at m c t) (Blk.b11_at m c t _ _ rfl rfl),
    Blk.gate_block m c t p q hr (iblk m c 5 t) (iblk m c 6 t) (iblk m c 12 t) (m ((c : Thread nD τ).loc main_arg7)) (m ((c : Thread nD τ).loc main_arg9)) (m ((c : Thread nD τ).loc main_arg8)) (m ((c : Thread nD τ).loc main_arg10))
      (Blk.w5_at m c t) (Blk.w6_at m c t) (Blk.b12_at m c t _ _ rfl rfl),
    Blk.gate_block m c t p q hr (iblk m c 7 t) (iblk m c 8 t) (iblk m c 13 t) (m ((c : Thread nD τ).loc main_arg11)) (m ((c : Thread nD τ).loc main_arg13)) (m ((c : Thread nD τ).loc main_arg12)) (m ((c : Thread nD τ).loc main_arg14))
      (Blk.w7_at m c t) (Blk.w8_at m c t) (Blk.b13_at m c t _ _ rfl rfl),
    Blk.gate_block m c t p q hr (iblk m c 9 t) (iblk m c 10 t) (iblk m c 14 t) (m ((c : Thread nD τ).loc main_arg15)) (m ((c : Thread nD τ).loc main_arg17)) (m ((c : Thread nD τ).loc main_arg16)) (m ((c : Thread nD τ).loc main_arg18))
      (Blk.w9_at m c t) (Blk.w10_at m c t) (Blk.b14_at m c t _ _ rfl rfl),
    Blk.c_at m c t p q hr]

/-! ## The sixteen blocks tile each result -/

/-- An index is in point t's new-cell block iff each coordinate is in the block's range on its axis. -/
theorem mem_blkC (t : Fin cfg0.N) (i : S4096x1024.Idx) :
    i ∈ ((cfg0.win 16).blk t).view.set ↔ ∀ a : Fin 2, win0_16.index t a * S256x1024.size a ≤ (i a).val ∧ (i a).val < win0_16.index t a * S256x1024.size a + S256x1024.size a := by
  show i ∈ ((View.whole main_v24_1).slice (win0_16.rect t)).set ↔ _
  rw [View.set_slice_whole, Rect.mem_set_unit]
  exact Iff.rfl

/-- The same for the new-hidden blocks. -/
theorem mem_blkH (t : Fin cfg0.N) (i : S4096x1024.Idx) :
    i ∈ ((cfg0.win 15).blk t).view.set ↔ ∀ a : Fin 2, win0_15.index t a * S256x1024.size a ≤ (i a).val ∧ (i a).val < win0_15.index t a * S256x1024.size a + S256x1024.size a := by
  show i ∈ ((View.whole main_v24_0).slice (win0_15.rect t)).set ↔ _
  rw [View.set_slice_whole, Rect.mem_set_unit]
  exact Iff.rfl

/-- Row r of the new-cell array lies in the block of point r / 256. -/
theorem coverC (i : S4096x1024.Idx) : ∃ t : Fin cfg0.N, (cfg0.win 16).flush t = true ∧ i ∈ ((cfg0.win 16).blk t).view.set := by
  have hi0 : (i 0).val < 4096 := (i 0).isLt
  have hi1 : (i 1).val < 1024 := (i 1).isLt
  have hlt : (i 0).val / 256 < cfg0.N := by show (i 0).val / 256 < 16; omega
  refine ⟨⟨(i 0).val / 256, hlt⟩, flush0_16 _, ?_⟩
  rw [mem_blkC]
  intro a
  have e := Blk.idx_rows ⟨(i 0).val / 256, hlt⟩
  match a with
  | ⟨0, _⟩ =>
    show win0_16.index ⟨(i 0).val / 256, hlt⟩ (0 : Fin 2) * 256 ≤ (i 0).val ∧ (i 0).val < win0_16.index ⟨(i 0).val / 256, hlt⟩ (0 : Fin 2) * 256 + 256
    rw [e.2.2.2.2.2.2.2.2.1]
    show (i 0).val / 256 * 256 ≤ (i 0).val ∧ (i 0).val < (i 0).val / 256 * 256 + 256
    omega
  | ⟨1, _⟩ =>
    show win0_16.index ⟨(i 0).val / 256, hlt⟩ (1 : Fin 2) * 1024 ≤ (i 1).val ∧ (i 1).val < win0_16.index ⟨(i 0).val / 256, hlt⟩ (1 : Fin 2) * 1024 + 1024
    rw [e.2.2.2.2.2.2.2.2.2]
    omega

/-- Row r of the new-hidden array lies in the block of point r / 256. -/
theorem coverH (i : S4096x1024.Idx) : ∃ t : Fin cfg0.N, (cfg0.win 15).flush t = true ∧ i ∈ ((cfg0.win 15).blk t).view.set := by
  have hi0 : (i 0).val < 4096 := (i 0).isLt
  have hi1 : (i 1).val < 1024 := (i 1).isLt
  have hlt : (i 0).val / 256 < cfg0.N := by show (i 0).val / 256 < 16; omega
  refine ⟨⟨(i 0).val / 256, hlt⟩, flush0_15 _, ?_⟩
  rw [mem_blkH]
  intro a
  have e := Blk.idx_rows ⟨(i 0).val / 256, hlt⟩
  match a with
  | ⟨0, _⟩ =>
    show win0_15.index ⟨(i 0).val / 256, hlt⟩ (0 : Fin 2) * 256 ≤ (i 0).val ∧ (i 0).val < win0_15.index ⟨(i 0).val / 256, hlt⟩ (0 : Fin 2) * 256 + 256
    rw [e.2.2.2.2.2.2.1]
    show (i 0).val / 256 * 256 ≤ (i 0).val ∧ (i 0).val < (i 0).val / 256 * 256 + 256
    omega
  | ⟨1, _⟩ =>
    show win0_15.index ⟨(i 0).val / 256, hlt⟩ (1 : Fin 2) * 1024 ≤ (i 1).val ∧ (i 1).val < win0_15.index ⟨(i 0).val / 256, hlt⟩ (1 : Fin 2) * 1024 + 1024
    rw [e.2.2.2.2.2.2.2.1]
    omega

/-! ## The result arrays, and the run -/

/-- The new-cell array after the run. -/
theorem finalC (c : Dev nD) : (dats m 0 c).arrAt 16 cfg0.N = newC m c :=
  (dats m 0 c).arrAt_eq_of_cover 16 (newC m c) (fun t _ => flushedC_eq m c t) coverC

/-- The new-hidden array after the run. -/
theorem finalH (c : Dev nD) : (dats m 0 c).arrAt 15 cfg0.N = newH m c :=
  (dats m 0 c).arrAt_eq_of_cover 15 (newH m c) (fun t _ => flushedH_eq m c t) coverH

/-- Every weakly fair execution of the kernel program ends with the two results at the specification's functions of the
    arguments, and the arguments unchanged. -/
theorem run : θ_run defs (onTc (τ := τ) (main (F := Ideal))) ⟨m, fun _ => 0, ρ⟩ fun r => ∀ c : Dev nD,
      r.2.mem ((c : Thread nD τ).loc main_v24_0) = newH m c
      ∧ r.2.mem ((c : Thread nD τ).loc main_v24_1) = newC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun _ h c => ⟨(h c).1.trans (finalH m c), (h c).2.1.trans (finalC m c), (h c).2.2⟩)
    (run_blocks m ρ)

end Cert.KernelIdeal.Hand

end
-- ==== Proof.RefValue.lean ====
/-
  The reference program read index by index is the LSTM cell of the specification.

  The program stacks the four gates' weight matrices into one [4096,1024] matrix (once for the hidden weights, once for
  the input weights) and the four summed biases into one [4096] vector, forms h·Whᵀ + x·Wxᵀ + b as one [4096,4096]
  array, and cuts it into four [4096,1024] gates. Row 1024·g + q of a stacked matrix is row q of piece g, so column
  1024·g + q of the big array at batch row p is gate g's pre-activation at (p, q). The logistic function is spelled
  1 / (1 + e^(-t)), which is its definition over the extended reals, and the word of the constant is the number 1.
-/
import proofs.«182195_j45054206935275_1_alg».proof.Proof.Gen.ReferenceIdeal.Read
import proofs.«182195_j45054206935275_1_alg».proof.Proof.Spec
import Idealize.ShloMosaic.PureOps.IdealRules

noncomputable section

open scoped BigOperators

namespace Cert.ReferenceIdeal.RefValue

open Cert.ReferenceIdeal Cert.ReferenceIdeal.Gen Idealize.ShloMosaic Idealize.ShloMosaic.ValueIdx Idealize.ShloMosaic.StableHlo

/-- Activations: batch 4096 by 1024 features. -/
abbrev ActV : Type := (⟨S4096x1024, .f32⟩ : BufTy).Contents (Elt Ideal)
/-- One gate's weight matrix. -/
abbrev WgtV : Type := (⟨S1024x1024, .f32⟩ : BufTy).Contents (Elt Ideal)
/-- One gate's bias. -/
abbrev BiasV : Type := (⟨S1024, .f32⟩ : BufTy).Contents (Elt Ideal)

/-! ## A stack of four pieces read at a row -/

section Stack
variable {α : Type}

/-- Row `pre + p` of four stacked [1024,1024] matrices, for `pre` the rows before piece `k`, is row `p` of piece `k`. -/
theorem stack2_piece (y0 y1 y2 y3 : S1024x1024.Idx → α)
    (h : Shape.Concatenates [S1024x1024, S1024x1024, S1024x1024, S1024x1024] S4096x1024 0)
    (j : S4096x1024.Idx) (p q : Fin 1024) (k : Nat) (hk : k < 4) (y : S1024x1024.Idx → α)
    (hy : [(⟨S1024x1024, y0⟩ : (s : Shape) × (s.Idx → α)), ⟨S1024x1024, y1⟩, ⟨S1024x1024, y2⟩, ⟨S1024x1024, y3⟩][k] = ⟨S1024x1024, y⟩)
    (pre : Nat)
    (hpre : ((([(⟨S1024x1024, y0⟩ : (s : Shape) × (s.Idx → α)), ⟨S1024x1024, y1⟩, ⟨S1024x1024, y2⟩, ⟨S1024x1024, y3⟩].take k).map (·.1)).map
      fun s => if h : s.rank = S4096x1024.rank then s.size ((0 : Fin S4096x1024.rank).cast h.symm) else 0).sum = pre)
    (h0 : (j 0).val = pre + p.val) (h1 : (j 1).val = q.val) :
    concatenate S4096x1024 0 [⟨S1024x1024, y0⟩, ⟨S1024x1024, y1⟩, ⟨S1024x1024, y2⟩, ⟨S1024x1024, y3⟩] h j = y (ix2 p q) :=
  concatenate_apply_piece (0 : Fin S4096x1024.rank) [⟨S1024x1024, y0⟩, ⟨S1024x1024, y1⟩, ⟨S1024x1024, y2⟩, ⟨S1024x1024, y3⟩] h j k hk S1024x1024 y hy rfl pre hpre (ix2 p q)
    (fun b hb => match b, hb with
      | ⟨0, _⟩, hb => absurd rfl hb
      | ⟨1, _⟩, _ => h1.symm)
    h0.symm

/-- Entry `pre + q` of four stacked [1024] vectors, for `pre` the entries before piece `k`, is entry `q` of piece `k`. -/
theorem stack1_piece (y0 y1 y2 y3 : S1024.Idx → α)
    (h : Shape.Concatenates [S1024, S1024, S1024, S1024] S4096 0)
    (j : S4096.Idx) (q : Fin 1024) (k : Nat) (hk : k < 4) (y : S1024.Idx → α)
    (hy : [(⟨S1024, y0⟩ : (s : Shape) × (s.Idx → α)), ⟨S1024, y1⟩, ⟨S1024, y2⟩, ⟨S1024, y3⟩][k] = ⟨S1024, y⟩)
    (pre : Nat)
    (hpre : ((([(⟨S1024, y0⟩ : (s : Shape) × (s.Idx → α)), ⟨S1024, y1⟩, ⟨S1024, y2⟩, ⟨S1024, y3⟩].take k).map (·.1)).map
      fun s => if h : s.rank = S4096.rank then s.size ((0 : Fin S4096.rank).cast h.symm) else 0).sum = pre)
    (h0 : (j 0).val = pre + q.val) :
    concatenate S4096 0 [⟨S1024, y0⟩, ⟨S1024, y1⟩, ⟨S1024, y2⟩, ⟨S1024, y3⟩] h j = y (ix1 q) :=
  concatenate_apply_piece (0 : Fin S4096.rank) [⟨S1024, y0⟩, ⟨S1024, y1⟩, ⟨S1024, y2⟩, ⟨S1024, y3⟩] h j k hk S1024 y hy rfl pre hpre (ix1 q)
    (fun b hb => match b, hb with
      | ⟨0, _⟩, hb => absurd rfl hb)
    h0.symm

end Stack

/-! ## The index functions of the generated reading, in coordinates -/

theorem lidx8 (J : S4096x4096.Idx) (k : Fin 1024) : Read.lidx_main_v8 J k = (ix2 (J 0) k : S4096x1024.Idx) :=
  funext fun a => match a with | ⟨0, _⟩ => rfl | ⟨1, _⟩ => rfl

theorem lidx10 (J : S4096x4096.Idx) (k : Fin 1024) : Read.lidx_main_v10 J k = (ix2 (J 0) k : S4096x1024.Idx) :=
  funext fun a => match a with | ⟨0, _⟩ => rfl | ⟨1, _⟩ => rfl

/-! ## The joined array: h·Whᵀ + x·Wxᵀ + b at one entry -/

/-- The [4096,4096] array at batch row `J 0` and joined column `J 1` is a gate's pre-activation, once the stacked
    weights at row `J 1` are known to be a gate's weights at row `q` and the stacked bias at `J 1` its two biases' sum. -/
theorem joined_at (x0 x1 : ActV) (x3 : WgtV) (x4 : BiasV) (x5 : WgtV) (x6 : BiasV) (x7 : WgtV) (x8 : BiasV) (x9 : WgtV) (x10 : BiasV) (x11 : WgtV) (x12 : BiasV) (x13 : WgtV) (x14 : BiasV) (x15 : WgtV) (x16 : BiasV) (x17 : WgtV) (x18 : BiasV)
    (J : S4096x4096.Idx) (q : Fin 1024) (Wh Wx : WgtV) (bh bx : BiasV)
    (hWh : ∀ k : Fin 1024, Read.val_main_v0 (F := Ideal) x3 x7 x11 x15 (Read.idx_main_v7 (Read.ridx_main_v8 J k)) = Wh (ix2 q k))
    (hWx : ∀ k : Fin 1024, Read.val_main_v1 (F := Ideal) x5 x9 x13 x17 (Read.idx_main_v9 (Read.ridx_main_v10 J k)) = Wx (ix2 q k))
    (hb : Read.val_main_v6 (F := Ideal) x4 x6 x8 x10 x12 x14 x16 x18 (Read.idx_main_v12 (Read.idx_main_v13 J)) = bh (ix1 q) + bx (ix1 q)) :
    Read.val_main_v14 (F := Ideal) x0 x1 x3 x4 x5 x6 x7 x8 x9 x10 x11 x12 x13 x14 x15 x16 x17 x18 J = Cert.Lstm.gatePre x1 x0 Wh Wx bh bx (ix2 (J 0) q) := by
  have e8 : ∀ k : Fin 1024, x1 (Read.lidx_main_v8 J k) * Read.val_main_v7 (F := Ideal) x3 x7 x11 x15 (Read.ridx_main_v8 J k)
      = x1 (ix2 (J 0) k) * Wh (ix2 q k) := fun k => by
    rw [Read.val_main_v7_apply, hWh k, lidx8]
  have e10 : ∀ k : Fin 1024, x0 (Read.lidx_main_v10 J k) * Read.val_main_v9 (F := Ideal) x5 x9 x13 x17 (Read.ridx_main_v10 J k)
      = x0 (ix2 (J 0) k) * Wx (ix2 q k) := fun k => by
    rw [Read.val_main_v9_apply, hWx k, lidx10]
  rw [Read.val_main_v14_apply, Read.val_main_v11_apply, Read.val_main_v8_apply, Read.val_main_v10_apply,
    Read.val_main_v13_apply, Read.val_main_v12_apply, hb]
  simp only [e8, e10]
  rfl

/-! ## The four gates' pre-activations: the four column blocks of the joined array -/

/-- Columns 0 to 1023 of the joined array: the forget gate. -/
theorem gate_f (x0 x1 : ActV) (x3 : WgtV) (x4 : BiasV) (x5 : WgtV) (x6 : BiasV) (x7 : WgtV) (x8 : BiasV) (x9 : WgtV) (x10 : BiasV) (x11 : WgtV) (x12 : BiasV) (x13 : WgtV) (x14 : BiasV) (x15 : WgtV) (x16 : BiasV) (x17 : WgtV) (x18 : BiasV) (i : S4096x1024.Idx) :
    Read.val_main_v15 (F := Ideal) x0 x1 x3 x4 x5 x6 x7 x8 x9 x10 x11 x12 x13 x14 x15 x16 x17 x18 i = Cert.Lstm.gatePre x1 x0 x3 x5 x4 x6 i := by
  have hJ := joined_at x0 x1 x3 x4 x5 x6 x7 x8 x9 x10 x11 x12 x13 x14 x15 x16 x17 x18 (Read.idx_main_v15 i) (i 1) x3 x5 x4 x6
    (fun k => stack2_piece x3 x7 x11 x15 _ _ (i 1) k 0 (by decide) x3 rfl 0 rfl (Nat.zero_add _).symm rfl)
    (fun k => stack2_piece x5 x9 x13 x17 _ _ (i 1) k 0 (by decide) x5 rfl 0 rfl (Nat.zero_add _).symm rfl)
    (stack1_piece _ _ _ _ _ _ (i 1) 0 (by decide) (Read.val_main_v2 (F := Ideal) x4 x6) rfl 0 rfl (Nat.zero_add _).symm)
  rw [Read.val_main_v15_apply, hJ]
  exact congrArg _ (eq_ix2 i).symm

/-- Columns 1024 to 2047: the input gate. -/
theorem gate_i (x0 x1 : ActV) (x3 : WgtV) (x4 : BiasV) (x5 : WgtV) (x6 : BiasV) (x7 : WgtV) (x8 : BiasV) (x9 : WgtV) (x10 : BiasV) (x11 : WgtV) (x12 : BiasV) (x13 : WgtV) (x14 : BiasV) (x15 : WgtV) (x16 : BiasV) (x17 : WgtV) (x18 : BiasV) (i : S4096x1024.Idx) :
    Read.val_main_v16 (F := Ideal) x0 x1 x3 x4 x5 x6 x7 x8 x9 x10 x11 x12 x13 x14 x15 x16 x17 x18 i = Cert.Lstm.gatePre x1 x0 x7 x9 x8 x10 i := by
  have hJ := joined_at x0 x1 x3 x4 x5 x6 x7 x8 x9 x10 x11 x12 x13 x14 x15 x16 x17 x18 (Read.idx_main_v16 i) (i 1) x7 x9 x8 x10
    (fun k => stack2_piece x3 x7 x11 x15 _ _ (i 1) k 1 (by decide) x7 rfl 1024 rfl rfl rfl)
    (fun k => stack2_piece x5 x9 x13 x17 _ _ (i 1) k 1 (by decide) x9 rfl 1024 rfl rfl rfl)
    (stack1_piece _ _ _ _ _ _ (i 1) 1 (by decide) (Read.val_main_v3 (F := Ideal) x8 x10) rfl 1024 rfl rfl)
  rw [Read.val_main_v16_apply, hJ]
  exact congrArg _ (eq_ix2 i).symm

/-- Columns 2048 to 3071: the candidate. -/
theorem gate_g (x0 x1 : ActV) (x3 : WgtV) (x4 : BiasV) (x5 : WgtV) (x6 : BiasV) (x7 : WgtV) (x8 : BiasV) (x9 : WgtV) (x10 : BiasV) (x11 : WgtV) (x12 : BiasV) (x13 : WgtV) (x14 : BiasV) (x15 : WgtV) (x16 : BiasV) (x17 : WgtV) (x18 : BiasV) (i : S4096x1024.Idx) :
    Read.val_main_v17 (F := Ideal) x0 x1 x3 x4 x5 x6 x7 x8 x9 x10 x11 x12 x13 x14 x15 x16 x17 x18 i = Cert.Lstm.gatePre x1 x0 x11 x13 x12 x14 i := by
  have hJ := joined_at x0 x1 x3 x4 x5 x6 x7 x8 x9 x10 x11 x12 x13 x14 x15 x16 x17 x18 (Read.idx_main_v17 i) (i 1) x11 x13 x12 x14
    (fun k => stack2_piece x3 x7 x11 x15 _ _ (i 1) k 2 (by decide) x11 rfl 2048 rfl rfl rfl)
    (fun k => stack2_piece x5 x9 x13 x17 _ _ (i 1) k 2 (by decide) x13 rfl 2048 rfl rfl rfl)
    (stack1_piece _ _ _ _ _ _ (i 1) 2 (by decide) (Read.val_main_v4 (F := Ideal) x12 x14) rfl 2048 rfl rfl)
  rw [Read.val_main_v17_apply, hJ]
  exact congrArg _ (eq_ix2 i).symm

/-- Columns 3072 to 4095: the output gate. -/
theorem gate_o (x0 x1 : ActV) (x3 : WgtV) (x4 : BiasV) (x5 : WgtV) (x6 : BiasV) (x7 : WgtV) (x8 : BiasV) (x9 : WgtV) (x10 : BiasV) (x11 : WgtV) (x12 : BiasV) (x13 : WgtV) (x14 : BiasV) (x15 : WgtV) (x16 : BiasV) (x17 : WgtV) (x18 : BiasV) (i : S4096x1024.Idx) :
    Read.val_main_v18 (F := Ideal) x0 x1 x3 x4 x5 x6 x7 x8 x9 x10 x11 x12 x13 x14 x15 x16 x17 x18 i = Cert.Lstm.gatePre x1 x0 x15 x17 x16 x18 i := by
  have hJ := joined_at x0 x1 x3 x4 x5 x6 x7 x8 x9 x10 x11 x12 x13 x14 x15 x16 x17 x18 (Read.idx_main_v18 i) (i 1) x15 x17 x16 x18
    (fun k => stack2_piece x3 x7 x11 x15 _ _ (i 1) k 3 (by decide) x15 rfl 3072 rfl rfl rfl)
    (fun k => stack2_piece x5 x9 x13 x17 _ _ (i 1) k 3 (by decide) x17 rfl 3072 rfl rfl rfl)
    (stack1_piece _ _ _ _ _ _ (i 1) 3 (by decide) (Read.val_main_v5 (F := Ideal) x16 x18) rfl 3072 rfl rfl)
  rw [Read.val_main_v18_apply, hJ]
  exact congrArg _ (eq_ix2 i).symm

/-! ## The nonlinearities -/

/-- The word of the program's constant is the number 1. -/
theorem one_word : Ideal.ofBits .f32 0x3F800000#32 = 1 := IdealRules.sign_bit.ideal_onePat .f32

/-- The logistic function as the program spells it: negate, exponential, add 1, divide 1 by the sum. -/
theorem logistic_spelled (t : EReal) :
    FloatOps.hostDivf (F := Ideal) (φ := .f32) (FloatOps.ofBits .f32 0x3F800000#32)
      (FloatOps.addf (FloatOps.ofBits .f32 0x3F800000#32) (FloatOps.hostUnary .exp (FloatOps.hostNegf t))) = Ideal.logistic t := by
  simp only [Ideal.hostDivf_def, Ideal.addf_def, Ideal.hostUnary_exp_def, Ideal.hostNegf_def, Ideal.negf_def, Ideal.ofBits_def, one_word]
  rfl

/-- The forget gate through the logistic function. -/
theorem sig_f (x0 x1 : ActV) (x3 : WgtV) (x4 : BiasV) (x5 : WgtV) (x6 : BiasV) (x7 : WgtV) (x8 : BiasV) (x9 : WgtV) (x10 : BiasV) (x11 : WgtV) (x12 : BiasV) (x13 : WgtV) (x14 : BiasV) (x15 : WgtV) (x16 : BiasV) (x17 : WgtV) (x18 : BiasV) (i : S4096x1024.Idx) :
    Read.val_main_v24 (F := Ideal) x0 x1 x3 x4 x5 x6 x7 x8 x9 x10 x11 x12 x13 x14 x15 x16 x17 x18 i = Ideal.logistic (Cert.Lstm.gatePre x1 x0 x3 x5 x4 x6 i) := by
  rw [Read.val_main_v24_apply, Read.val_main_v23_apply, Read.val_main_cst_0_apply, Read.val_main_v22_apply,
    Read.val_main_v21_apply, Read.val_main_cst_apply, Read.val_main_v20_apply, Read.val_main_v19_apply, gate_f]
  exact logistic_spelled _

/-- The input gate through the logistic function. -/
theorem sig_i (x0 x1 : ActV) (x3 : WgtV) (x4 : BiasV) (x5 : WgtV) (x6 : BiasV) (x7 : WgtV) (x8 : BiasV) (x9 : WgtV) (x10 : BiasV) (x11 : WgtV) (x12 : BiasV) (x13 : WgtV) (x14 : BiasV) (x15 : WgtV) (x16 : BiasV) (x17 : WgtV) (x18 : BiasV) (i : S4096x1024.Idx) :
    Read.val_main_v30 (F := Ideal) x0 x1 x3 x4 x5 x6 x7 x8 x9 x10 x11 x12 x13 x14 x15 x16 x17 x18 i = Ideal.logistic (Cert.Lstm.gatePre x1 x0 x7 x9 x8 x10 i) := by
  rw [Read.val_main_v30_apply, Read.val_main_v29_apply, Read.val_main_cst_2_apply, Read.val_main_v28_apply,
    Read.val_main_v27_apply, Read.val_main_cst_1_apply, Read.val_main_v26_apply, Read.val_main_v25_apply, gate_i]
  exact logistic_spelled _

/-- The output gate through the logistic function. -/
theorem sig_o (x0 x1 : ActV) (x3 : WgtV) (x4 : BiasV) (x5 : WgtV) (x6 : BiasV) (x7 : WgtV) (x8 : BiasV) (x9 : WgtV) (x10 : BiasV) (x11 : WgtV) (x12 : BiasV) (x13 : WgtV) (x14 : BiasV) (x15 : WgtV) (x16 : BiasV) (x17 : WgtV) (x18 : BiasV) (i : S4096x1024.Idx) :
    Read.val_main_v37 (F := Ideal) x0 x1 x3 x4 x5 x6 x7 x8 x9 x10 x11 x12 x13 x14 x15 x16 x17 x18 i = Ideal.logistic (Cert.Lstm.gatePre x1 x0 x15 x17 x16 x18 i) := by
  rw [Read.val_main_v37_apply, Read.val_main_v36_apply, Read.val_main_cst_4_apply, Read.val_main_v35_apply,
    Read.val_main_v34_apply, Read.val_main_cst_3_apply, Read.val_main_v33_apply, Read.val_main_v32_apply, gate_o]
  exact logistic_spelled _

/-- The candidate through the hyperbolic tangent. -/
theorem tanh_g (x0 x1 : ActV) (x3 : WgtV) (x4 : BiasV) (x5 : WgtV) (x6 : BiasV) (x7 : WgtV) (x8 : BiasV) (x9 : WgtV) (x10 : BiasV) (x11 : WgtV) (x12 : BiasV) (x13 : WgtV) (x14 : BiasV) (x15 : WgtV) (x16 : BiasV) (x17 : WgtV) (x18 : BiasV) (i : S4096x1024.Idx) :
    Read.val_main_v31 (F := Ideal) x0 x1 x3 x4 x5 x6 x7 x8 x9 x10 x11 x12 x13 x14 x15 x16 x17 x18 i = Ideal.tanh (Cert.Lstm.gatePre x1 x0 x11 x13 x12 x14 i) := by
  rw [Read.val_main_v31_apply, gate_g]
  rfl

/-! ## The two results -/

/-- The program's second result, the new cell state. -/
theorem v40_eq (x0 x1 x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) :
    Read.val_main_v40 (F := Ideal) x0 x1 x2 x3 x4 x5 x6 x7 x8 x9 x10 x11 x12 x13 x14 x15 x16 x17 x18
      = Cert.Lstm.cellC (Cert.Lstm.gatePre x1 x0 x3 x5 x4 x6) (Cert.Lstm.gatePre x1 x0 x7 x9 x8 x10)
          (Cert.Lstm.gatePre x1 x0 x11 x13 x12 x14) x2 := by
  funext i
  rw [Read.val_main_v40_apply, Read.val_main_v38_apply, Read.val_main_v39_apply, sig_f, sig_i, tanh_g]
  rfl

/-- The program's first result, the new hidden state. -/
theorem v42_eq (x0 x1 x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) :
    Read.val_main_v42 (F := Ideal) x0 x1 x2 x3 x4 x5 x6 x7 x8 x9 x10 x11 x12 x13 x14 x15 x16 x17 x18
      = Cert.Lstm.cellH (Cert.Lstm.gatePre x1 x0 x3 x5 x4 x6) (Cert.Lstm.gatePre x1 x0 x7 x9 x8 x10)
          (Cert.Lstm.gatePre x1 x0 x11 x13 x12 x14) (Cert.Lstm.gatePre x1 x0 x15 x17 x16 x18) x2 := by
  funext i
  rw [Read.val_main_v42_apply, Read.val_main_v41_apply, v40_eq, sig_o]
  rfl

end Cert.ReferenceIdeal.RefValue

end
-- ==== Proof.lean ====
/-
  An LSTM cell, as one fused kernel against its plain reference, equal over the extended reals.

  Both programs compute, for every batch row b and hidden unit j, the four gates' pre-activations
      (Σ_k h[b,k]·Wh[j,k] + Σ_k x[b,k]·Wx[j,k]) + (bh[j] + bx[j])
  and from them the new cell state σ(f)·c + σ(i)·tanh(g) and the new hidden state tanh(c')·σ(o) (Proof/Spec.lean).
  The kernel walks the batch in sixteen blocks of 256 rows, with the weights narrowed and transposed beforehand and each
  gate's two biases added beforehand; narrowing is the identity on extended reals, a matrix product into a zero
  accumulator is the plain sum, and the sixteen blocks tile the results (Proof/Payload.lean, Proof/Blocks.lean,
  Proof/Final.lean). The reference stacks the four gates into one product of width 4096 and slices the gates back out;
  row 1024·g + j of a stack is row j of piece g, and its logistic function, spelled 1/(1 + e^(-t)), is the logistic
  function's definition (Proof/RefValue.lean). The two sums agree term by term, in the same order of additions, so no
  algebraic law and no finiteness of the inputs is used: the precondition is never opened.
  The three frames are the generated ones (the reference's is its generated run with the results dropped); the ideal pass
  rewrote nothing, so there is nothing to preserve.
-/
import proofs.«182195_j45054206935275_1_alg».proof.Defs
import proofs.«182195_j45054206935275_1_alg».proof.Proof.Gen.Kernel
import proofs.«182195_j45054206935275_1_alg».proof.Proof.Gen.Kernel.Skeleton
import proofs.«182195_j45054206935275_1_alg».proof.Proof.Gen.Kernel.Launch
import proofs.«182195_j45054206935275_1_alg».proof.Proof.Gen.Kernel.Points
import proofs.«182195_j45054206935275_1_alg».proof.Proof.Gen.Kernel.Frame
import proofs.«182195_j45054206935275_1_alg».proof.Proof.Gen.KernelIdeal
import proofs.«182195_j45054206935275_1_alg».proof.Proof.Gen.KernelIdeal.Skeleton
import proofs.«182195_j45054206935275_1_alg».proof.Proof.Gen.KernelIdeal.Launch
import proofs.«182195_j45054206935275_1_alg».proof.Proof.Gen.KernelIdeal.Points
import proofs.«182195_j45054206935275_1_alg».proof.Proof.Gen.KernelIdeal.Frame
import proofs.«182195_j45054206935275_1_alg».proof.Proof.Gen.ReferenceIdeal
import proofs.«182195_j45054206935275_1_alg».proof.Proof.Gen.Pre_finite_inputs
import proofs.«182195_j45054206935275_1_alg».proof.Proof.Gen.KernelIdeal.Value
import proofs.«182195_j45054206935275_1_alg».proof.Proof.Gen.ReferenceIdeal.Run
import proofs.«182195_j45054206935275_1_alg».proof.Proof.Gen.ReferenceIdeal.Read
import proofs.«182195_j45054206935275_1_alg».proof.Proof.Final
import proofs.«182195_j45054206935275_1_alg».proof.Proof.RefValue
import Idealize.ShloMosaic.Adequacy
import Idealize.ShloMosaic.Init

noncomputable section

namespace Cert.Proof

open Idealize.ShloMosaic Idealize.SL.Sem

/-- The word-level kernel terminates, faults nowhere and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the nineteen arguments both programs end with the new hidden state and the new cell
    state of the specification: the kernel's two arrays by the blocks' reading, the reference's two terms by the stacked
    product's reading, at arguments rewritten by the agreement. -/
theorem algebraic : Cert.algebraic_KernelIdeal_ReferenceIdeal := by
  intro m ρ m' ρ' _ hagree
  refine ⟨fun c => Cert.KernelIdeal.Hand.newH m c, fun c => Cert.KernelIdeal.Hand.newC m c, Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · show Cert.ReferenceIdeal.Value.res_main_v42 m' c = Cert.KernelIdeal.Hand.newH m c
    rw [Cert.ReferenceIdeal.Read.val_main_v42_eq, Cert.ReferenceIdeal.RefValue.v42_eq]
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]
    rfl
  · show Cert.ReferenceIdeal.Value.res_main_v40 m' c = Cert.KernelIdeal.Hand.newC m c
    rw [Cert.ReferenceIdeal.Read.val_main_v40_eq, Cert.ReferenceIdeal.RefValue.v40_eq]
    obtain ⟨e0, e1, e2, e3, e4, e5, e6, e7, e8, e9, e10, e11, e12, e13, e14, e15, e16, e17, e18⟩ := hagree c
    rw [e0, e1, e2, e3, e4, e5, e6, e7, e8, e9, e10, e11, e12, e13, e14]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
